-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "eps_squared" .f32 0x179ABE15#32 ((5316911940649 / 5316911983139663491615228241121378304 : ℝ) : EReal)
  ∧ IdealRules.named_const.Statement Cert.KernelIdeal.κ "inv_temperature" .f32 0x41649249#32 ((134217728 / 9395241 : ℝ) : EReal)
  ∧ IdealRules.named_const.Statement Cert.KernelIdeal.κ "inv_temperature" .f32 0x41649249#32 ((134217728 / 9395241 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x128 : Shape := ⟨3, ![16, 4096, 128]⟩
abbrev S64x128 : Shape := ⟨2, ![64, 128]⟩
abbrev S_ : Shape := ⟨0, ![]⟩

class Facts : Prop where
  bcast_S_S16x4096x128 : S_.BroadcastsInDim S16x4096x128 (![] : Fin 0 → Fin S16x4096x128.rank)
  reducesTo_S16x4096x128_S_d0_1_2 : S16x4096x128.ReducesTo [0, 1, 2] S_
  h_S_ : 0 < S_.numel
  bcast_S_S64x128 : S_.BroadcastsInDim S64x128 (![] : Fin 0 → Fin S64x128.rank)
  reducesTo_S64x128_S_d0_1 : S64x128.ReducesTo [0, 1] S_

variable [Facts]

def fn {F : FTy → Type} [FloatOps F] (main_arg0 : FVec F S16x4096x128 .f32) (main_arg1 : FVec F S64x128 .f32) : IVec S_ 1 :=
  let main_v0 : FVec F S16x4096x128 .f32 := Host.absf main_arg0
  let main_cst : FVec F S_ .f32 := constant S_ .f32 0x7F800000#32
  let main_v1 : FVec F S16x4096x128 .f32 := broadcastInDim S16x4096x128 ![] bcast_S_S16x4096x128 main_cst
  let main_v2 : IVec S16x4096x128 1 := cmpf .olt main_v0 main_v1
  let main_c : IVec S_ 1 := constantI S_ 1 1#1
  let main_v3 : IVec S_ 1 := (fun x v => Host.reduce IntOp.andi x v reducesTo_S16x4096x128_S_d0_1_2 h_S_) main_v2 main_c
  let main_v4 : FVec F S64x128 .f32 := Host.absf main_arg1
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  main_v8
-- ==== Kernel.lean ====
abbrev S16x4096x128 : Shape := ⟨3, ![16, 4096, 128]⟩
abbrev S64x128 : Shape := ⟨2, ![64, 128]⟩
abbrev S4x4096x128 : Shape := ⟨3, ![4, 4096, 128]⟩
abbrev S16384x128 : Shape := ⟨2, ![16384, 128]⟩
abbrev S64 : Shape := ⟨1, ![64]⟩
abbrev S64x1 : Shape := ⟨2, ![64, 1]⟩
abbrev S128x128 : Shape := ⟨2, ![128, 128]⟩
abbrev S128x64 : Shape := ⟨2, ![128, 64]⟩
abbrev S16384x64 : Shape := ⟨2, ![16384, 64]⟩
abbrev S16384 : Shape := ⟨1, ![16384]⟩
abbrev S16384x1 : Shape := ⟨2, ![16384, 1]⟩

abbrev nBuf : Space → Nat
  | .hbm => 3
  | .vmem => 5
  | .smem => 0
  | _ => 0

abbrev bufTy : (tb : Table) → Fin (tcTables nBuf tb) → BufTy
  | .hbm, ⟨0, _⟩ => ⟨S16x4096x128, .f32⟩
  | .hbm, ⟨1, _⟩ => ⟨S64x128, .f32⟩
  | .hbm, ⟨2, _⟩ => ⟨S16x4096x128, .f32⟩
  | .local _ .vmem, ⟨0, _⟩ => ⟨S4x4096x128, .f32⟩
  | .local _ .vmem, ⟨1, _⟩ => ⟨S4x4096x128, .f32⟩
  | .local _ .vmem, ⟨2, _⟩ => ⟨S64x128, .f32⟩
  | .local _ .vmem, ⟨3, _⟩ => ⟨S4x4096x128, .f32⟩
  | .local _ .vmem, ⟨4, _⟩ => ⟨S4x4096x128, .f32⟩
  | _, _ => ⟨S16x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4x4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S4x4096x128_S4x4096x128_0_0_0 : ∀ a, (![0, 0, 0] : Fin 3 → Nat) a + S4x4096x128.size a ≤ S4x4096x128.size a
  h_S4x4096x128 : 0 < S4x4096x128.numel
  shapeCasts_S4x4096x128_S16384x128 : S4x4096x128.ShapeCasts S16384x128
  inb_S64x128_S64x128_0_0 : ∀ a, (![0, 0] : Fin 2 → Nat) a + S64x128.size a ≤ S64x128.size a
  h_S64x128 : 0 < S64x128.numel
  reduces_S64x128_S64 : S64x128.Reduces [1] S64
  shapeCasts_S64_S64x1 : S64.ShapeCasts S64x1
  broadcasts_S64x1_S64x128 : S64x1.Broadcasts S64x128
  transposes_S64x128_p1_0_S128x64 : S64x128.Transposes [1, 0] S128x64
  reduces_S16384x64_S16384 : S16384x64.Reduces [1] S16384
  shapeCasts_S16384_S16384x1 : S16384.ShapeCasts S16384x1
  broadcasts_S16384x1_S16384x64 : S16384x1.Broadcasts S16384x64
  shapeCasts_S16384x128_S4x4096x128 : S16384x128.ShapeCasts S4x4096x128
  dot_S16384x128_S128x128_S16384x128_1_0_0_1_n_n_wf : DotDims.WF S16384x128 S128x128 S16384x128 [1] [0] [0] [1] [] []
  dot_S16384x128_S128x64_S16384x64_1_0_0_1_n_n_wf : DotDims.WF S16384x128 S128x64 S16384x64 [1] [0] [0] [1] [] []
  dot_S16384x64_S64x128_S16384x128_1_0_0_1_n_n_wf : DotDims.WF S16384x64 S64x128 S16384x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x4096x128.size a ≤ S16x4096x128.size a
  hwx0_0 : ∀ i : grid0.Coords, EltTy.bits .f32 = 32 ∨ (Rect.block (s := S16x4096x128) S4x4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x4096x128.size a ≤ S16x4096x128.size a
  hwx0_2 : ∀ i : grid0.Coords, EltTy.bits .f32 = 32 ∨ (Rect.block (s := S16x4096x128) S4x4096x128.size (cc0_transform_2 i) (hinb0_2 i)).WholeWords (EltTy.packing .f32)

variable [Facts₀]

def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf
def dot_S16384x128_S128x64_S16384x64_1_0_0_1_n_n : DotDims S16384x128 S128x64 S16384x64 where
  lhsContracting := [1]
  rhsContracting := [0]
  lhsNonContracting := [0]
  rhsNonContracting := [1]
  lhsBatch := []
  rhsBatch := []
  wf := dot_S16384x128_S128x64_S16384x64_1_0_0_1_n_n_wf
def dot_S16384x64_S64x128_S16384x128_1_0_0_1_n_n : DotDims S16384x64 S64x128 S16384x128 where
  lhsContracting := [1]
  rhsContracting := [0]
  lhsNonContracting := [0]
  rhsNonContracting := [1]
  lhsBatch := []
  rhsBatch := []
  wf := dot_S16384x64_S64x128_S16384x128_1_0_0_1_n_n_wf

abbrev win0_0 : Pipeline.Window sig grid0 :=
  Pipeline.Window.ofSpec (Memref.whole main_arg0) S4x4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4x4096x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x4096x128 : Shape := ⟨3, ![16, 4096, 128]⟩
abbrev S64x128 : Shape := ⟨2, ![64, 128]⟩
abbrev S_ : Shape := ⟨0, ![]⟩
abbrev S16x4096 : Shape := ⟨2, ![16, 4096]⟩
abbrev S16x4096x1 : Shape := ⟨3, ![16, 4096, 1]⟩
abbrev S65536x128 : Shape := ⟨2, ![65536, 128]⟩
abbrev S64 : Shape := ⟨1, ![64]⟩
abbrev S64x1 : Shape := ⟨2, ![64, 1]⟩
abbrev S128x64 : Shape := ⟨2, ![128, 64]⟩
abbrev S65536x64 : Shape := ⟨2, ![65536, 64]⟩
abbrev S65536 : Shape := ⟨1, ![65536]⟩
abbrev S65536x1 : Shape := ⟨2, ![65536, 1]⟩

abbrev nBuf : Space → Nat
  | .hbm => 45
  | .vmem => 0
  | .smem => 0
  | _ => 0

abbrev bufTy : (tb : Table) → Fin (tcTables nBuf tb) → BufTy
  | .hbm, ⟨0, _⟩ => ⟨S16x4096x128, .f32⟩
  | .hbm, ⟨1, _⟩ => ⟨S64x128, .f32⟩
  | .hbm, ⟨2, _⟩ => ⟨S16x4096x128, .f32⟩
  | .hbm, ⟨3, _⟩ => ⟨S_, .f32⟩
  | .hbm, ⟨4, _⟩ => ⟨S16x4096, .f32⟩
  | .hbm, ⟨5, _⟩ => ⟨S16x4096x1, .f32⟩
  | .hbm, ⟨6, _⟩ => ⟨S16x4096x1, .f32⟩
  | .hbm, ⟨7, _⟩ => ⟨S_, .f32⟩
  | .hbm, ⟨8, _⟩ => ⟨S16x4096x1, .f32⟩
  | .hbm, ⟨9, _⟩ => ⟨S16x4096x1, .f32⟩
  | .hbm, ⟨10, _⟩ => ⟨S16x4096x128, .f32⟩
  | .hbm, ⟨11, _⟩ => ⟨S16x4096x128, .f32⟩
  | .hbm, ⟨12, _⟩ => ⟨S65536x128, .f32⟩
  | .hbm, ⟨13, _⟩ => ⟨S64x128, .f32⟩
  | .hbm, ⟨14, _⟩ => ⟨S_, .f32⟩
  | .hbm, ⟨15, _⟩ => ⟨S64, .f32⟩
  | .hbm, ⟨16, _⟩ => ⟨S64x1, .f32⟩
  | .hbm, ⟨17, _⟩ => ⟨S64x1, .f32⟩
  | .hbm, ⟨18, _⟩ => ⟨S_, .f32⟩
  | .hbm, ⟨19, _⟩ => ⟨S64x1, .f32⟩
  | .hbm, ⟨20, _⟩ => ⟨S64x1, .f32⟩
  | .hbm, ⟨21, _⟩ => ⟨S64x128, .f32⟩
  | .hbm, ⟨22, _⟩ => ⟨S64x128, .f32⟩
  | .hbm, ⟨23, _⟩ => ⟨S128x64, .f32⟩
  | .hbm, ⟨24, _⟩ => ⟨S65536x64, .f32⟩
  | .hbm, ⟨25, _⟩ => ⟨S_, .f32⟩
  | .hbm, ⟨26, _⟩ => ⟨S65536x64, .f32⟩
  | .hbm, ⟨27, _⟩ => ⟨S65536x64, .f32⟩
  | .hbm, ⟨28, _⟩ => ⟨S_, .f32⟩
  | .hbm, ⟨29, _⟩ => ⟨S65536, .f32⟩
  | .hbm, ⟨30, _⟩ => ⟨S_, .f32⟩
  | .hbm, ⟨31, _⟩ => ⟨S65536, .f32⟩
  | .hbm, ⟨32, _⟩ => ⟨S65536, .f32⟩
  | .hbm, ⟨33, _⟩ => ⟨S65536x1, .f32⟩
  | .hbm, ⟨34, _⟩ => ⟨S65536x64, .f32⟩
  | .hbm, ⟨35, _⟩ => ⟨S65536x64, .f32⟩
  | .hbm, ⟨36, _⟩ => ⟨S65536x64, .f32⟩
  | .hbm, ⟨37, _⟩ => ⟨S_, .f32⟩
  | .hbm, ⟨38, _⟩ => ⟨S65536, .f32⟩
  | .hbm, ⟨39, _⟩ => ⟨S65536x1, .f32⟩
  | .hbm, ⟨40, _⟩ => ⟨S65536x64, .f32⟩
  | .hbm, ⟨41, _⟩ => ⟨S65536x64, .f32⟩
  | .hbm, ⟨42, _⟩ => ⟨S65536x128, .f32⟩
  | .hbm, ⟨43, _⟩ => ⟨S65536x128, .f32⟩
  | .hbm, ⟨44, _⟩ => ⟨S16x4096x128, .f32⟩
  | _, _ => ⟨S16x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_cst_5 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_6 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩

abbrev nD : Nat := 1
abbrev τ : Topo := Topo.v7x

variable {F : FTy → Type} [FloatOps F]

class Facts₀ : Prop where
  reducesTo_S16x4096x128_S16x4096_d2 : S16x4096x128.ReducesTo [2] S16x4096
  h_S_ : 0 < S_.numel
  bcast_S16x4096_S16x4096x1_0_1 : S16x4096.BroadcastsInDim S16x4096x1 (![0, 1] : Fin 2 → Fin S16x4096x1.rank)
  bcast_S_S16x4096x1 : S_.BroadcastsInDim S16x4096x1 (![] : Fin 0 → Fin S16x4096x1.rank)
  bcast_S16x4096x1_S16x4096x128_0_1_2 : S16x4096x1.BroadcastsInDim S16x4096x128 (![0, 1, 2] : Fin 3 → Fin S16x4096x128.rank)
  shapeCasts_S16x4096x128_S65536x128 : S16x4096x128.ShapeCasts S65536x128
  reducesTo_S64x128_S64_d1 : S64x128.ReducesTo [1] S64
  bcast_S64_S64x1_0 : S64.BroadcastsInDim S64x1 (![0] : Fin 1 → Fin S64x1.rank)
  bcast_S_S64x1 : S_.BroadcastsInDim S64x1 (![] : Fin 0 → Fin S64x1.rank)
  bcast_S64x1_S64x128_0_1 : S64x1.BroadcastsInDim S64x128 (![0, 1] : Fin 2 → Fin S64x128.rank)
  transposes_S64x128_S128x64_1_0 : S64x128.Transposes [1, 0] S128x64
  bcast_S_S65536x64 : S_.BroadcastsInDim S65536x64 (![] : Fin 0 → Fin S65536x64.rank)
  reducesTo_S65536x64_S65536_d1 : S65536x64.ReducesTo [1] S65536
  bcast_S_S65536 : S_.BroadcastsInDim S65536 (![] : Fin 0 → Fin S65536.rank)
  bcast_S65536_S65536x1_0 : S65536.BroadcastsInDim S65536x1 (![0] : Fin 1 → Fin S65536x1.rank)
  bcast_S65536x1_S65536x64_0_1 : S65536x1.BroadcastsInDim S65536x64 (![0, 1] : Fin 2 → Fin S65536x64.rank)
  shapeCasts_S65536x128_S16x4096x128 : S65536x128.ShapeCasts S16x4096x128
  dot_S65536x128_S128x64_S65536x64_1_0_0_1_n_n_wf : DotDims.WF S65536x128 S128x64 S65536x64 [1] [0] [0] [1] [] []
  dot_S65536x64_S64x128_S65536x128_1_0_0_1_n_n_wf : DotDims.WF S65536x64 S64x128 S65536x128 [1] [0] [0] [1] [] []

variable [Facts₀]

def dot_S65536x128_S128x64_S65536x64_1_0_0_1_n_n : DotDims S65536x128 S128x64 S65536x64 where
  lhsContracting := [1]
  rhsContracting := [0]
  lhsNonContracting := [0]
  rhsNonContracting := [1]
  lhsBatch := []
  rhsBatch := []
  wf := dot_S65536x128_S128x64_S65536x64_1_0_0_1_n_n_wf
def dot_S65536x64_S64x128_S65536x128_1_0_0_1_n_n : DotDims S65536x64 S64x128 S65536x128 where
  lhsContracting := [1]
  rhsContracting := [0]
  lhsNonContracting := [0]
  rhsNonContracting := [1]
  lhsBatch := []
  rhsBatch := []
  wf := dot_S65536x64_S64x128_S65536x128_1_0_0_1_n_n_wf

class Facts : Prop extends Facts₀ where

variable [Facts]
-- ==== Proof.LibPlainDot.lean ====
/-
  A plain two-dimensional contraction read at an index.

  A dot of a [R, K] array with a [K, C] array over the one shared axis, accumulated into zero, has at (p, c) the
  value "sum over k of l(p, k) * r(k, c)" on the extended reals. The statement is generic in the dot's record: the
  four hypotheses say, for the operand indices the record computes at output index i and contraction index q, which
  coordinate is the output's own (row of the left operand, column of the right) and which is the contracted one.
  For a concrete record each of them is decided from its literal axis lists.
-/
import Idealize.ShloMosaic.Lib.ValueIdx
import Idealize.ShloMosaic.PureOps.Ideal.Laws

noncomputable section

namespace Cert.LibPlainDot

open Idealize.ShloMosaic Idealize.ShloMosaic.ValueIdx

/-- A [R, K] by [K, C] contraction into a zero accumulator, at (p, c): the sum over `k` of `l (p, k) * r (k, c)`.
    `hl0` and `hr1` say the left operand's row and the right operand's column are the output's; `hl1` and `hr0`
    say the left operand's column and the right operand's row are the contracted coordinate. -/
theorem matmul_zero_apply {R K C : Nat} (D : DotDims (⟨2, ![R, K]⟩ : Shape) (⟨2, ![K, C]⟩ : Shape) (⟨2, ![R, C]⟩ : Shape))
    (hr : D.contr.rank = 1) (hs : D.contr.size ⟨0, by omega⟩ = K)
    (hl0 : ∀ (i : (⟨2, ![R, C]⟩ : Shape).Idx) (q : D.contr.Idx), (D.lhsIdx i q ⟨0, Nat.zero_lt_two⟩).val = (i ⟨0, Nat.zero_lt_two⟩).val)
    (hl1 : ∀ (i : (⟨2, ![R, C]⟩ : Shape).Idx) (q : D.contr.Idx), (D.lhsIdx i q ⟨1, Nat.one_lt_two⟩).val = (q ⟨0, by omega⟩).val)
    (hr0 : ∀ (i : (⟨2, ![R, C]⟩ : Shape).Idx) (q : D.contr.Idx), (D.rhsIdx i q ⟨0, Nat.zero_lt_two⟩).val = (q ⟨0, by omega⟩).val)
    (hr1 : ∀ (i : (⟨2, ![R, C]⟩ : Shape).Idx) (q : D.contr.Idx), (D.rhsIdx i q ⟨1, Nat.one_lt_two⟩).val = (i ⟨1, Nat.one_lt_two⟩).val)
    (prec : Option ContractPrecision) (l : FVec Ideal ⟨2, ![R, K]⟩ .f32) (r : FVec Ideal ⟨2, ![K, C]⟩ .f32) (p : Fin R) (c : Fin C) :
    FloatOps.matmul D prec l r (constant ⟨2, ![R, C]⟩ .f32 0x00000000#32) (ix2 p c) = ∑ k : Fin K, l (ix2 p k) * r (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.LibPlainDot

end
-- ==== Proof.KernelDots.lean ====
/-
  The kernel's three matrix products, each read at an index.

  The body multiplies the squared feature block by a matrix of ones (a row sum arriving in every lane), the unit
  feature rows by the scaled transposed bank (the similarities), and the normalised weights by the bank's unit
  rows (the mixture). Each is a plain [R, K] by [K, C] contraction into a zero accumulator, so at (p, c) it is the
  sum over `k` of `l (p, k) * r (k, c)`; what is checked per product is only which coordinate of each operand index
  is the output's and which is the contracted one, read off the product's literal axis lists.
-/
import proofs.«136098_g85598698209303_cont_9to1_m_192_14_alg».proof.Proof.Gen.KernelIdeal
import proofs.«136098_g85598698209303_cont_9to1_m_192_14_alg».proof.Proof.LibPlainDot

noncomputable section

namespace Cert.KernelDots

open Cert.KernelIdeal Idealize.ShloMosaic Idealize.ShloMosaic.ValueIdx

/-! ## The row sum of squares: [16384, 128] by the [128, 128] matrix of ones -/

theorem lhs_sumsq_0 (i : S16384x128.Idx) (q : dot_S16384x128_S128x128_S16384x128_1_0_0_1_n_n.contr.Idx) :
    (dot_S16384x128_S128x128_S16384x128_1_0_0_1_n_n.lhsIdx i q 0).val = (i 0).val := by
  unfold DotDims.lhsIdx
  rw [dif_neg (show ¬(0 : Fin S16384x128.rank) ∈ dot_S16384x128_S128x128_S16384x128_1_0_0_1_n_n.lhsBatch by decide), dif_pos (show (0 : Fin S16384x128.rank) ∈ dot_S16384x128_S128x128_S16384x128_1_0_0_1_n_n.lhsNonContracting by decide)]
  rfl
theorem lhs_sumsq_1 (i : S16384x128.Idx) (q : dot_S16384x128_S128x128_S16384x128_1_0_0_1_n_n.contr.Idx) :
    (dot_S16384x128_S128x128_S16384x128_1_0_0_1_n_n.lhsIdx i q 1).val = (q ⟨0, by decide⟩).val :=
  dot_S16384x128_S128x128_S16384x128_1_0_0_1_n_n.lhsIdx_val_of_single rfl i q
theorem rhs_sumsq_0 (i : S16384x128.Idx) (q : dot_S16384x128_S128x128_S16384x128_1_0_0_1_n_n.contr.Idx) :
    (dot_S16384x128_S128x128_S16384x128_1_0_0_1_n_n.rhsIdx i q 0).val = (q ⟨0, by decide⟩).val :=
  dot_S16384x128_S128x128_S16384x128_1_0_0_1_n_n.rhsIdx_val_of_single rfl i q
theorem rhs_sumsq_1 (i : S16384x128.Idx) (q : dot_S16384x128_S128x128_S16384x128_1_0_0_1_n_n.contr.Idx) :
    (dot_S16384x128_S128x128_S16384x128_1_0_0_1_n_n.rhsIdx i q 1).val = (i 1).val := by
  unfold DotDims.rhsIdx
  rw [dif_neg (show ¬(1 : Fin S128x128.rank) ∈ dot_S16384x128_S128x128_S16384x128_1_0_0_1_n_n.rhsBatch by decide), dif_pos (show (1 : Fin S128x128.rank) ∈ dot_S16384x128_S128x128_S16384x128_1_0_0_1_n_n.rhsNonContracting by decide)]
  rfl

theorem sumsq_dot (l : FVec Ideal S16384x128 .f32) (r : FVec Ideal S128x128 .f32) (p : Fin 16384) (c : Fin 128) :
    matmul dot_S16384x128_S128x128_S16384x128_1_0_0_1_n_n none l r (constant S16384x128 .f32 0x00000000#32) (ix2 p c) = ∑ k : Fin 128, l (ix2 p k) * r (ix2 k c) :=
  Cert.LibPlainDot.matmul_zero_apply dot_S16384x128_S128x128_S16384x128_1_0_0_1_n_n rfl rfl
    (fun i q => lhs_sumsq_0 i q) (fun i q => lhs_sumsq_1 i q) (fun i q => rhs_sumsq_0 i q) (fun i q => rhs_sumsq_1 i q) none l r p c

/-! ## The similarities: [16384, 128] by [128, 64] -/

theorem lhs_sim_0 (i : S16384x64.Idx) (q : dot_S16384x128_S128x64_S16384x64_1_0_0_1_n_n.contr.Idx) :
    (dot_S16384x128_S128x64_S16384x64_1_0_0_1_n_n.lhsIdx i q 0).val = (i 0).val := by
  unfold DotDims.lhsIdx
  rw [dif_neg (show ¬(0 : Fin S16384x128.rank) ∈ dot_S16384x128_S128x64_S16384x64_1_0_0_1_n_n.lhsBatch by decide), dif_pos (show (0 : Fin S16384x128.rank) ∈ dot_S16384x128_S128x64_S16384x64_1_0_0_1_n_n.lhsNonContracting by decide)]
  rfl
theorem lhs_sim_1 (i : S16384x64.Idx) (q : dot_S16384x128_S128x64_S16384x64_1_0_0_1_n_n.contr.Idx) :
    (dot_S16384x128_S128x64_S16384x64_1_0_0_1_n_n.lhsIdx i q 1).val = (q ⟨0, by decide⟩).val :=
  dot_S16384x128_S128x64_S16384x64_1_0_0_1_n_n.lhsIdx_val_of_single rfl i q
theorem rhs_sim_0 (i : S16384x64.Idx) (q : dot_S16384x128_S128x64_S16384x64_1_0_0_1_n_n.contr.Idx) :
    (dot_S16384x128_S128x64_S16384x64_1_0_0_1_n_n.rhsIdx i q 0).val = (q ⟨0, by decide⟩).val :=
  dot_S16384x128_S128x64_S16384x64_1_0_0_1_n_n.rhsIdx_val_of_single rfl i q
theorem rhs_sim_1 (i : S16384x64.Idx) (q : dot_S16384x128_S128x64_S16384x64_1_0_0_1_n_n.contr.Idx) :
    (dot_S16384x128_S128x64_S16384x64_1_0_0_1_n_n.rhsIdx i q 1).val = (i 1).val := by
  unfold DotDims.rhsIdx
  rw [dif_neg (show ¬(1 : Fin S128x64.rank) ∈ dot_S16384x128_S128x64_S16384x64_1_0_0_1_n_n.rhsBatch by decide), dif_pos (show (1 : Fin S128x64.rank) ∈ dot_S16384x128_S128x64_S16384x64_1_0_0_1_n_n.rhsNonContracting by decide)]
  rfl

theorem sim_dot (l : FVec Ideal S16384x128 .f32) (r : FVec Ideal S128x64 .f32) (p : Fin 16384) (c : Fin 64) :
    matmul dot_S16384x128_S128x64_S16384x64_1_0_0_1_n_n none l r (constant S16384x64 .f32 0x00000000#32) (ix2 p c) = ∑ k : Fin 128, l (ix2 p k) * r (ix2 k c) :=
  Cert.LibPlainDot.matmul_zero_apply dot_S16384x128_S128x64_S16384x64_1_0_0_1_n_n rfl rfl
    (fun i q => lhs_sim_0 i q) (fun i q => lhs_sim_1 i q) (fun i q => rhs_sim_0 i q) (fun i q => rhs_sim_1 i q) none l r p c

/-! ## The mixture: [16384, 64] by [64, 128] -/

theorem lhs_mix_0 (i : S16384x128.Idx) (q : dot_S16384x64_S64x128_S16384x128_1_0_0_1_n_n.contr.Idx) :
    (dot_S16384x64_S64x128_S16384x128_1_0_0_1_n_n.lhsIdx i q 0).val = (i 0).val := by
  unfold DotDims.lhsIdx
  rw [dif_neg (show ¬(0 : Fin S16384x64.rank) ∈ dot_S16384x64_S64x128_S16384x128_1_0_0_1_n_n.lhsBatch by decide), dif_pos (show (0 : Fin S16384x64.rank) ∈ dot_S16384x64_S64x128_S16384x128_1_0_0_1_n_n.lhsNonContracting by decide)]
  rfl
theorem lhs_mix_1 (i : S16384x128.Idx) (q : dot_S16384x64_S64x128_S16384x128_1_0_0_1_n_n.contr.Idx) :
    (dot_S16384x64_S64x128_S16384x128_1_0_0_1_n_n.lhsIdx i q 1).val = (q ⟨0, by decide⟩).val :=
  dot_S16384x64_S64x128_S16384x128_1_0_0_1_n_n.lhsIdx_val_of_single rfl i q
theorem rhs_mix_0 (i : S16384x128.Idx) (q : dot_S16384x64_S64x128_S16384x128_1_0_0_1_n_n.contr.Idx) :
    (dot_S16384x64_S64x128_S16384x128_1_0_0_1_n_n.rhsIdx i q 0).val = (q ⟨0, by decide⟩).val :=
  dot_S16384x64_S64x128_S16384x128_1_0_0_1_n_n.rhsIdx_val_of_single rfl i q
theorem rhs_mix_1 (i : S16384x128.Idx) (q : dot_S16384x64_S64x128_S16384x128_1_0_0_1_n_n.contr.Idx) :
    (dot_S16384x64_S64x128_S16384x128_1_0_0_1_n_n.rhsIdx i q 1).val = (i 1).val := by
  unfold DotDims.rhsIdx
  rw [dif_neg (show ¬(1 : Fin S64x128.rank) ∈ dot_S16384x64_S64x128_S16384x128_1_0_0_1_n_n.rhsBatch by decide), dif_pos (show (1 : Fin S64x128.rank) ∈ dot_S16384x64_S64x128_S16384x128_1_0_0_1_n_n.rhsNonContracting by decide)]
  rfl

theorem mix_dot (l : FVec Ideal S16384x64 .f32) (r : FVec Ideal S64x128 .f32) (p : Fin 16384) (c : Fin 128) :
    matmul dot_S16384x64_S64x128_S16384x128_1_0_0_1_n_n none l r (constant S16384x128 .f32 0x00000000#32) (ix2 p c) = ∑ k : Fin 64, l (ix2 p k) * r (ix2 k c) :=
  Cert.LibPlainDot.matmul_zero_apply dot_S16384x64_S64x128_S16384x128_1_0_0_1_n_n rfl rfl
    (fun i q => lhs_mix_0 i q) (fun i q => lhs_mix_1 i q) (fun i q => rhs_mix_0 i q) (fun i q => rhs_mix_1 i q) none l r p c

end Cert.KernelDots

end
-- ==== Proof.Words.lean ====
/-
  The float words both programs spell, as the extended reals they denote. The reference clamps each norm below
  at the word for 1e-12, which is exactly 2305843 / 2^61, and divides the similarities by the word for 0.07,
  which is exactly 9395241 / 2^27. The kernel's matrix of ones spells 1.0, and the reference's running maximum
  starts from the word for minus infinity, the bottom of the extended reals.
-/
import Idealize.ShloMosaic.PureOps.Ideal

noncomputable section

namespace Cert.Words

open Idealize.ShloMosaic

/-- The norm floor shared by both programs, as a real number: 2305843 / 2^61. -/
def eps : ℝ := 2305843 / 2305843009213693952

/-- The reference's temperature, as a real number: 9395241 / 2^27. -/
def temp : ℝ := 9395241 / 134217728

theorem eps_pos : 0 < eps := by unfold eps; norm_num

theorem temp_pos : 0 < temp := by unfold temp; norm_num

/-- The word both programs write for 1e-12 denotes `eps`. -/
theorem ofBits_eps : Ideal.ofBits .f32 0x2B8CBCCC#32 = ((eps : ℝ) : EReal) := by
  simp [Ideal.ofBits, Ideal.ieee, -EReal.coe_mul, eps]; norm_num

/-- The word the reference writes for 0.07 denotes `temp`. -/
theorem ofBits_temp : Ideal.ofBits .f32 0x3D8F5C29#32 = ((temp : ℝ) : EReal) := by
  simp [Ideal.ofBits, Ideal.ieee, -EReal.coe_mul, temp]; norm_num

/-- The word for 1.0 denotes 1. -/
theorem ofBits_one : Ideal.ofBits .f32 0x3F800000#32 = 1 := by
  simp [Ideal.ofBits, Ideal.ieee, -EReal.coe_mul]; norm_num

/-- The word for minus infinity denotes the bottom element. -/
theorem ofBits_neg_inf : Ideal.ofBits .f32 0xFF800000#32 = ⊥ := by
  simp [Ideal.ofBits, Ideal.ieee]

/-- The square of the norm floor is the value the kernel's named constant carries. -/
theorem eps_sq : eps * eps = 5316911940649 / 5316911983139663491615228241121378304 := by
  unfold eps; norm_num

/-- The reciprocal of the temperature is the value the kernel's other named constant carries. -/
theorem inv_temp : 1 / temp = 134217728 / 9395241 := by
  unfold temp; norm_num

end Cert.Words

end
-- ==== Proof.RowLaw.lean ====
/-
  The mathematics of one output row.

  Each output row depends on one feature row `x` (128 numbers) and on the whole memory bank `m` (64 rows of 128).
  Write `n(v) = max (sqrt (sum of v_l^2)) eps` for the Euclidean norm floored at `eps`, `u(v) = v / n(v)`,
  `s_j = (sum over l of u(x)_l * u(m_j)_l) / temp`, and `a_j = exp(s_j) / (sum over i of exp(s_i))`. The row is
  `u(x)_k + sum over j of a_j * u(m_j)_k`.

  The reference divides `x` by `n(x)`, divides the inner products by `temp`, and subtracts the largest `s_j`
  before the exponential. The kernel multiplies `x` by the reciprocal square root of `max (sum of x_l^2) (eps^2)`,
  scales the bank by `1 / temp` before the inner product, and subtracts the constant `1 / temp` before the
  exponential. On real inputs the two agree: the square root is monotone, so it commutes with the maximum, and
  `sqrt (eps^2) = eps`; the factor `1 / temp` comes out of the finite sum; and a common shift of the exponents
  cancels between numerator and denominator of `a_j`. Both rows are stated over the extended reals, as the two
  programs compute them, and brought to one real expression when every input entry is a real number.
-/
import Idealize.ShloMosaic.PureOps.Ideal
import proofs.«136098_g85598698209303_cont_9to1_m_192_14_alg».proof.Proof.Words

noncomputable section

namespace Cert.RowLaw

open Idealize.ShloMosaic Cert.Words

/-! ## Coercions through a maximum, a finite sum, and a running maximum -/

theorem coe_max (a b : ℝ) : ((max a b : ℝ) : EReal) = max (a : EReal) (b : EReal) := by
  rcases le_total a b with h | h
  · rw [max_eq_right h, max_eq_right (EReal.coe_le_coe_iff.2 h)]
  · rw [max_eq_left h, max_eq_left (EReal.coe_le_coe_iff.2 h)]

theorem coe_sum {ι : Type} (s : Finset ι) (f : ι → ℝ) :
    ∑ i ∈ s, ((f i : ℝ) : EReal) = ((∑ i ∈ s, f i : ℝ) : EReal) := by
  classical
  refine Finset.induction_on s (by simp) ?_
  intro a s ha ih
  rw [Finset.sum_insert ha, Finset.sum_insert ha, ih, EReal.coe_add]

theorem coe_sum_mul {ι : Type} (s : Finset ι) (f g : ι → ℝ) :
    ∑ i ∈ s, ((f i : ℝ) : EReal) * ((g i : ℝ) : EReal) = ((∑ i ∈ s, f i * g i : ℝ) : EReal) := by
  rw [← coe_sum]
  exact Finset.sum_congr rfl fun i _ => (EReal.coe_mul _ _).symm

/-- A running maximum from the bottom over real entries is a real number as soon as there is an entry. -/
theorem fold_max_real {ι : Type} [DecidableEq ι] (s : Finset ι) (f : ι → EReal) (hf : ∀ i, ∃ r : ℝ, f i = (r : EReal)) :
    s = ∅ ∨ ∃ r : ℝ, s.fold max ⊥ f = (r : EReal) := by
  refine Finset.induction_on s (Or.inl rfl) ?_
  intro a s ha ih
  right
  obtain ⟨ra, hra⟩ := hf a
  rw [Finset.fold_insert ha, hra]
  rcases ih with h | ⟨r, h⟩
  · subst h
    exact ⟨ra, by rw [Finset.fold_empty, max_bot_right]⟩
  · exact ⟨max ra r, by rw [h, coe_max]⟩

/-! ## The row over the extended reals, as each program computes it -/

/-- The Euclidean norm of a vector, never below the norm floor. -/
def flooredNorm (v : Fin 128 → EReal) : EReal := max (Ideal.sqrt (∑ l, v l * v l)) (eps : EReal)

/-- A vector divided by its floored norm. -/
def unitQ (v : Fin 128 → EReal) (l : Fin 128) : EReal := Ideal.div (v l) (flooredNorm v)

/-- A vector times the reciprocal square root of its squared norm, floored at the square of the norm floor. -/
def unitR (v : Fin 128 → EReal) (l : Fin 128) : EReal :=
  v l * Ideal.rsqrt (max (∑ l, v l * v l) ((eps * eps : ℝ) : EReal))

/-- The reference's similarity with bank row `j`: the inner product of the two unit vectors, over the temperature. -/
def refSim (x : Fin 128 → EReal) (m : Fin 64 → Fin 128 → EReal) (j : Fin 64) : EReal :=
  Ideal.div (∑ l, unitQ x l * unitQ (m j) l) (temp : EReal)

/-- The reference's shift: the largest similarity, a running maximum from the bottom. -/
def refTop (x : Fin 128 → EReal) (m : Fin 64 → Fin 128 → EReal) : EReal :=
  max ⊥ ((Finset.univ : Finset (Fin 64)).fold max ⊥ (refSim x m))

def refWeight (x : Fin 128 → EReal) (m : Fin 64 → Fin 128 → EReal) (j : Fin 64) : EReal :=
  Ideal.exp (refSim x m j - refTop x m)

/-- The reference's output row. -/
def refRow (x : Fin 128 → EReal) (m : Fin 64 → Fin 128 → EReal) (k : Fin 128) : EReal :=
  unitQ x k + ∑ j, Ideal.div (refWeight x m j) (∑ i, refWeight x m i) * unitQ (m j) k

/-- The kernel's similarity: the bank's unit rows are scaled by the reciprocal temperature before the inner product. -/
def kerSim (x : Fin 128 → EReal) (m : Fin 64 → Fin 128 → EReal) (j : Fin 64) : EReal :=
  ∑ l, unitR x l * (unitQ (m j) l * ((1 / temp : ℝ) : EReal))

def kerWeight (x : Fin 128 → EReal) (m : Fin 64 → Fin 128 → EReal) (j : Fin 64) : EReal :=
  Ideal.exp (kerSim x m j - ((1 / temp : ℝ) : EReal))

/-- The kernel's output row. -/
def kerRow (x : Fin 128 → EReal) (m : Fin 64 → Fin 128 → EReal) (k : Fin 128) : EReal :=
  unitR x k + ∑ j, Ideal.div (kerWeight x m j) (∑ i, kerWeight x m i) * unitQ (m j) k

/-! ## The same row over the reals -/

def normR (v : Fin 128 → ℝ) : ℝ := max (Real.sqrt (∑ l, v l * v l)) eps

theorem normR_pos (v : Fin 128 → ℝ) : 0 < normR v := lt_max_of_lt_right eps_pos

def dirR (v : Fin 128 → ℝ) (l : Fin 128) : ℝ := v l / normR v

def simR (x : Fin 128 → ℝ) (m : Fin 64 → Fin 128 → ℝ) (j : Fin 64) : ℝ := (∑ l, dirR x l * dirR (m j) l) / temp

def softR (x : Fin 128 → ℝ) (m : Fin 64 → Fin 128 → ℝ) (j : Fin 64) : ℝ :=
  Real.exp (simR x m j) / ∑ i, Real.exp (simR x m i)

def rowR (x : Fin 128 → ℝ) (m : Fin 64 → Fin 128 → ℝ) (k : Fin 128) : ℝ := dirR x k + ∑ j, softR x m j * dirR (m j) k

theorem sumsq_nonneg (v : Fin 128 → ℝ) : 0 ≤ ∑ l, v l * v l := Finset.sum_nonneg fun l _ => mul_self_nonneg (v l)

/-- A common shift of the exponents cancels in a normalised exponential weight. -/
theorem softmax_shift (s : Fin 64 → ℝ) (c : ℝ) (j : Fin 64) :
    Real.exp (s j - c) / ∑ i, Real.exp (s i - c) = Real.exp (s j) / ∑ i, Real.exp (s i) := by
  simp only [Real.exp_sub]
  rw [← Finset.sum_div, div_div_div_cancel_right₀ (Real.exp_ne_zero c)]

/-! ## Each program's row on real inputs -/

section
variable {x : Fin 128 → EReal} {xr : Fin 128 → ℝ} (hx : ∀ l, x l = ((xr l : ℝ) : EReal))
variable {m : Fin 64 → Fin 128 → EReal} {mr : Fin 64 → Fin 128 → ℝ} (hm : ∀ j l, m j l = ((mr j l : ℝ) : EReal))
include hx

theorem flooredNorm_real : flooredNorm x = ((normR xr : ℝ) : EReal) := by
  unfold flooredNorm normR
  simp only [hx]
  rw [coe_sum_mul, Ideal.sqrt_coe, if_neg (not_lt.2 (sumsq_nonneg xr)), coe_max]

theorem unitQ_real (l : Fin 128) : unitQ x l = ((dirR xr l : ℝ) : EReal) := by
  unfold unitQ dirR
  rw [flooredNorm_real hx, hx, Ideal.div_coe (normR_pos xr).ne', ← EReal.coe_mul, mul_one_div]

/-- The reciprocal square root of the floored squared norm is the reciprocal of the floored norm. -/
theorem unitR_real (l : Fin 128) : unitR x l = ((dirR xr l : ℝ) : EReal) := by
  have hpos : 0 < max (∑ l, xr l * xr l) (eps * eps) := lt_max_of_lt_right (mul_pos eps_pos eps_pos)
  unfold unitR dirR
  simp only [hx]
  rw [coe_sum_mul, ← coe_max, Ideal.rsqrt_coe, if_neg (not_lt.2 hpos.le), if_neg hpos.ne', ← EReal.coe_mul]
  refine congrArg _ ?_
  rw [div_eq_mul_inv]
  refine congrArg (fun t => xr l * t⁻¹) ?_
  unfold normR
  rw [Real.sqrt_monotone.map_max, Real.sqrt_mul_self eps_pos.le]

include hm

theorem unitQ_bank (j : Fin 64) (l : Fin 128) : unitQ (m j) l = ((dirR (mr j) l : ℝ) : EReal) :=
  unitQ_real (hm j) l

theorem refSim_real (j : Fin 64) : refSim x m j = ((simR xr mr j : ℝ) : EReal) := by
  unfold refSim simR
  simp only [unitQ_real hx, unitQ_bank hx hm]
  rw [coe_sum_mul, Ideal.div_coe temp_pos.ne', ← EReal.coe_mul, mul_one_div]

/-- The factor `1 / temp` on the bank's side of the inner product comes out of the sum. -/
theorem kerSim_real (j : Fin 64) : kerSim x m j = ((simR xr mr j : ℝ) : EReal) := by
  unfold kerSim simR
  simp only [unitR_real hx, unitQ_bank hx hm, ← EReal.coe_mul]
  rw [coe_sum, Finset.sum_div]
  refine congrArg _ (Finset.sum_congr rfl fun l _ => ?_)
  rw [← mul_assoc, mul_one_div]

/-- The largest similarity is a real number. -/
theorem refTop_real : ∃ M : ℝ, refTop x m = ((M : ℝ) : EReal) := by
  unfold refTop
  rcases fold_max_real Finset.univ (refSim x m) (fun j => ⟨_, refSim_real hx hm j⟩) with h | ⟨r, h⟩
  · exact absurd h Finset.univ_nonempty.ne_empty
  · exact ⟨r, by rw [h, max_bot_left]⟩

/-- Weights that are exponentials of the similarities shifted by any one real constant mix the bank's unit rows
    with the normalised exponential weights. -/
theorem mix_real (w : Fin 64 → EReal) (c : ℝ) (hw : ∀ j, w j = ((Real.exp (simR xr mr j - c) : ℝ) : EReal)) (k : Fin 128) :
    ∑ j, Ideal.div (w j) (∑ i, w i) * unitQ (m j) k = ((∑ j, softR xr mr j * dirR (mr j) k : ℝ) : EReal) := by
  have hZ : (∑ i, Real.exp (simR xr mr i - c)) ≠ 0 :=
    (Finset.sum_pos (fun i _ => Real.exp_pos _) Finset.univ_nonempty).ne'
  simp only [hw, unitQ_bank hx hm]
  rw [coe_sum]
  simp only [Ideal.div_coe hZ, ← EReal.coe_mul]
  rw [coe_sum]
  refine congrArg _ (Finset.sum_congr rfl fun j _ => ?_)
  unfold softR
  rw [← softmax_shift (simR xr mr) c j, mul_one_div]

theorem refRow_real (k : Fin 128) : refRow x m k = ((rowR xr mr k : ℝ) : EReal) := by
  obtain ⟨M, hM⟩ := refTop_real hx hm
  have hw : ∀ j, refWeight x m j = ((Real.exp (simR xr mr j - M) : ℝ) : EReal) := fun j => by
    unfold refWeight
    rw [refSim_real hx hm, hM, ← EReal.coe_sub, Ideal.exp_coe]
  unfold refRow rowR
  rw [mix_real hx hm (refWeight x m) M hw k, unitQ_real hx, ← EReal.coe_add]

theorem kerRow_real (k : Fin 128) : kerRow x m k = ((rowR xr mr k : ℝ) : EReal) := by
  have hw : ∀ j, kerWeight x m j = ((Real.exp (simR xr mr j - 1 / temp) : ℝ) : EReal) := fun j => by
    unfold kerWeight
    rw [kerSim_real hx hm, ← EReal.coe_sub, Ideal.exp_coe]
  unfold kerRow rowR
  rw [mix_real hx hm (kerWeight x m) (1 / temp) hw k, unitR_real hx, ← EReal.coe_add]

/-- On real inputs the kernel's row is the reference's row. -/
theorem row_law : kerRow x m = refRow x m :=
  funext fun k => (kerRow_real hx hm k).trans (refRow_real hx hm k).symm

end

end Cert.RowLaw

end
-- ==== Proof.Spec.lean ====
/-
  The result array as one function of the two argument arrays.

  The feature array has shape [16, 4096, 128] and the memory bank [64, 128]. Entry (b, s, k) of the result is
  entry `k` of the attended row computed from feature row (b, s) and the whole bank (the row of the row law).
  Flattening the first two axes row-major gives the row number `b * 4096 + s`, which is how the reference,
  working on a [65536, 128] array, and the kernel, working on blocks of four batches as [16384, 128], meet the
  same rows.
-/
import Idealize.ShloMosaic.Lib.ValueIdx
import proofs.«136098_g85598698209303_cont_9to1_m_192_14_alg».proof.Proof.RowLaw

noncomputable section

namespace Cert.Spec

open Idealize.ShloMosaic Idealize.ShloMosaic.ValueIdx

/-- Feature row (b, s): the 128 entries along the last axis. -/
def featRow (X : (⟨3, ![16, 4096, 128]⟩ : Shape).Idx → EReal) (b : Fin 16) (s : Fin 4096) : Fin 128 → EReal :=
  fun l => X (ix3 b s l)

/-- The memory bank as 64 rows of 128 entries. -/
def bankRows (B : (⟨2, ![64, 128]⟩ : Shape).Idx → EReal) : Fin 64 → Fin 128 → EReal :=
  fun j l => B (ix2 j l)

/-- The whole result array: at (b, s, k), entry `k` of the kernel's row for feature row (b, s). -/
def attended (X : (⟨3, ![16, 4096, 128]⟩ : Shape).Idx → EReal) (B : (⟨2, ![64, 128]⟩ : Shape).Idx → EReal) :
    (⟨3, ![16, 4096, 128]⟩ : Shape).Idx → EReal :=
  fun i => Cert.RowLaw.kerRow (featRow X (i 0) (i 1)) (bankRows B) (i 2)

/-- The row number of feature row (b, s) once the first two axes are flattened row-major. -/
def flat (b : Fin 16) (s : Fin 4096) : Fin 65536 :=
  ⟨b.val * 4096 + s.val, by have := b.isLt; have := s.isLt; omega⟩

end Cert.Spec

end
-- ==== Proof.KernelRows.lean ====
/-
  The kernel body's value, read at an index.

  At one grid point the body holds a block of four batches of the features, [4, 4096, 128], and the whole bank,
  [64, 128]. It flattens the block to [16384, 128]; divides every bank row by its floored norm; gets every feature
  row's sum of squares as a product with a matrix of ones; scales each feature row by the reciprocal square root of
  that sum floored at the square of the norm floor; takes the similarities against the transposed bank scaled by
  the reciprocal temperature; subtracts that constant, exponentiates, and divides by the row's sum of weights;
  mixes the bank's unit rows with the weights; adds the unit feature row; and un-flattens. Read at (b, s, k) of the
  block this is entry `k` of the kernel's row of the row law for the block's feature row (b, s): the stages below
  are the body's values named one by one, then each read at explicit coordinates, with row number `b * 4096 + s`
  standing for (b, s) on the flattened block.
-/
import proofs.«136098_g85598698209303_cont_9to1_m_192_14_alg».proof.Proof.Gen.KernelIdeal.Skeleton
import proofs.«136098_g85598698209303_cont_9to1_m_192_14_alg».proof.Proof.KernelDots
import proofs.«136098_g85598698209303_cont_9to1_m_192_14_alg».proof.Proof.Spec
import Idealize.ShloMosaic.Lib.Pipeline.Value
import Idealize.ShloMosaic.PureOps.IdealRules

noncomputable section

namespace Cert.KernelRows

open Cert.KernelIdeal Cert.KernelIdeal.Gen Idealize.ShloMosaic Idealize.ShloMosaic.ValueIdx
open Cert.RowLaw Cert.Words Cert.KernelDots

/-! ## The two named constants -/

/-- The kernel's floor under the squared norm denotes the square of the norm floor. -/
theorem named_eps_sq : Named.named (F := Ideal) κ "eps_squared" (φ := .f32) 0x179ABE15#32 = ((eps * eps : ℝ) : EReal) := by
  rw [eps_sq]
  exact IdealRules.named_const.ideal_named_scalar _ _ _ _ rfl

/-- The kernel's scale on the bank denotes the reciprocal of the temperature. -/
theorem named_inv_temp : Named.named (F := Ideal) κ "inv_temperature" (φ := .f32) 0x41649249#32 = ((1 / temp : ℝ) : EReal) := by
  rw [inv_temp]
  exact IdealRules.named_const.ideal_named_scalar _ _ _ _ rfl

/-! ## The body's values, stage by stage -/

variable (v0 : Vec Ideal S4x4096x128 .f32) (v2 : Vec Ideal S64x128 .f32)

/-- The block with its first two axes flattened. -/
def flatBlock : FVec Ideal S16384x128 .f32 := shapeCast S16384x128 v0 shapeCasts_S4x4096x128_S16384x128

/-- Each bank row's sum of squares. -/
def bankSumsq : FVec Ideal S64 .f32 :=
  multiReduction .add [1] S64 (mulf v2 v2) 0x00000000#32 reduces_S64x128_S64 (.inl rfl) rfl

/-- The bank's unit rows. -/
def bankUnit : FVec Ideal S64x128 .f32 :=
  divf v2 (broadcastTo S64x128 (maximumf (sqrt (shapeCast S64x1 (bankSumsq v2) shapeCasts_S64_S64x1))
    (broadcast S64x1 (Scalar.ofBits .f32 0x2B8CBCCC#32))) broadcasts_S64x1_S64x128)

/-- Each feature row's sum of squares, in every lane. -/
def featSumsq : FVec Ideal S16384x128 .f32 :=
  matmul dot_S16384x128_S128x128_S16384x128_1_0_0_1_n_n none (mulf (flatBlock v0) (flatBlock v0)) (broadcast S128x128 (Scalar.ofBits .f32 0x3F800000#32))
    (constant S16384x128 .f32 0x00000000#32)

/-- The unit feature rows. -/
def featUnit : FVec Ideal S16384x128 .f32 :=
  mulf (flatBlock v0) (rsqrt (maximumf (featSumsq v0) (broadcast S16384x128 (Named.named κ "eps_squared" 0x179ABE15#32))))

/-- The similarities. -/
def sims : FVec Ideal S16384x64 .f32 :=
  matmul dot_S16384x128_S128x64_S16384x64_1_0_0_1_n_n none (featUnit v0)
    (mulf (transpose S128x64 [1, 0] (bankUnit v2) transposes_S64x128_p1_0_S128x64) (broadcast S128x64 (Named.named κ "inv_temperature" 0x41649249#32)))
    (constant S16384x64 .f32 0x00000000#32)

/-- The exponential weights. -/
def weights : FVec Ideal S16384x64 .f32 :=
  exp (subf (sims v0 v2) (broadcast S16384x64 (Named.named κ "inv_temperature" 0x41649249#32)))

/-- Each row's sum of weights. -/
def weightSum : FVec Ideal S16384 .f32 :=
  multiReduction .add [1] S16384 (weights v0 v2) 0x00000000#32 reduces_S16384x64_S16384 (.inl rfl) rfl

/-- The normalised weights. -/
def shares : FVec Ideal S16384x64 .f32 :=
  divf (weights v0 v2) (broadcastTo S16384x64 (shapeCast S16384x1 (weightSum v0 v2) shapeCasts_S16384_S16384x1) broadcasts_S16384x1_S16384x64)

/-- The output rows, still flattened. -/
def outFlat : FVec Ideal S16384x128 .f32 :=
  addf (featUnit v0) (matmul dot_S16384x64_S64x128_S16384x128_1_0_0_1_n_n none (shares v0 v2) (bankUnit v2) (constant S16384x128 .f32 0x00000000#32))

/-- The body's stored value is these stages composed. -/
theorem payload_eq : k0_pay1 (F := Ideal) v0 v2 = shapeCast S4x4096x128 (outFlat v0 v2) shapeCasts_S16384x128_S4x4096x128 := rfl

/-! ## Each stage at explicit coordinates -/

/-- The row number of the block's feature row (b, s). -/
def flat4 (b : Fin 4) (s : Fin 4096) : Fin 16384 := ⟨b.val * 4096 + s.val, by have := b.isLt; have := s.isLt; omega⟩

/-- The block's feature row (b, s). -/
def blockRow (b : Fin 4) (s : Fin 4096) : Fin 128 → EReal := fun l => v0 (ix3 b s l)

theorem flatBlock_at (b : Fin 4) (s : Fin 4096) (l : Fin 128) : flatBlock v0 (ix2 (flat4 b s) l) = blockRow v0 b s l := by
  unfold flatBlock
  exact shapeCast_apply v0 shapeCasts_S4x4096x128_S16384x128 (ix2 (flat4 b s) l) (ix3 b s l)
    (by rw [Shape.rowMajor_val_three, Shape.rowMajor_val_two]; rfl)

theorem bankSumsq_at (j : Fin 64) : bankSumsq v2 (ix1 j) = ∑ l : Fin 128, v2 (ix2 j l) * v2 (ix2 j l) := by
  unfold bankSumsq
  refine (Ideal.multiReduction_add_single (mulf v2 v2) 0x00000000#32 reduces_S64x128_S64 (.inl rfl) rfl (ix1 j)).trans ?_
  show ∑ k : Fin 128, _ = _
  refine Finset.sum_congr rfl fun k _ => ?_
  have e : reduces_S64x128_S64.lift (ix1 j) k = ix2 j k := by
    funext c; apply Fin.ext
    fin_cases c <;> rfl
  rw [e]
  rfl

theorem bankUnit_at (j : Fin 64) (l : Fin 128) : bankUnit v2 (ix2 j l) = unitQ (Cert.Spec.bankRows v2 j) l := by
  have hb : ∀ w : FVec Ideal S64x1 .f32, broadcastTo S64x128 w broadcasts_S64x1_S64x128 (ix2 j l) = w (ix2 j (0 : Fin 1)) := fun w =>
    broadcastTo_apply w broadcasts_S64x1_S64x128 (ix2 j l) (ix2 j (0 : Fin 1)) (fun a => match a with
      | ⟨0, _⟩ => by show j.val = if (64 : Nat) = 1 then 0 else j.val; rw [if_neg (by decide)]
      | ⟨1, _⟩ => by show 0 = if (1 : Nat) = 1 then 0 else l.val; rw [if_pos rfl])
  have hc : shapeCast S64x1 (bankSumsq v2) shapeCasts_S64_S64x1 (ix2 j (0 : Fin 1)) = bankSumsq v2 (ix1 j) :=
    shapeCast_apply (bankSumsq v2) shapeCasts_S64_S64x1 (ix2 j (0 : Fin 1)) (ix1 j)
      (by rw [Shape.rowMajor_val_one, Shape.rowMajor_val_two]; show j.val = j.val * 1 + 0; omega)
  unfold bankUnit
  show Ideal.div (v2 (ix2 j l)) (broadcastTo S64x128 _ broadcasts_S64x1_S64x128 (ix2 j l)) = _
  rw [hb]
  show Ideal.div (v2 (ix2 j l)) (max (Ideal.sqrt (shapeCast S64x1 (bankSumsq v2) shapeCasts_S64_S64x1 (ix2 j (0 : Fin 1))))
    (Ideal.ofBits .f32 0x2B8CBCCC#32)) = _
  rw [hc, bankSumsq_at, ofBits_eps]
  rfl

theorem featSumsq_at (b : Fin 4) (s : Fin 4096) (c : Fin 128) :
    featSumsq v0 (ix2 (flat4 b s) c) = ∑ l : Fin 128, blockRow v0 b s l * blockRow v0 b s l := by
  unfold featSumsq
  rw [sumsq_dot]
  refine Finset.sum_congr rfl fun l _ => ?_
  show (flatBlock v0 (ix2 (flat4 b s) l) * flatBlock v0 (ix2 (flat4 b s) l)) * Ideal.ofBits .f32 0x3F800000#32 = _
  rw [flatBlock_at, ofBits_one, mul_one]

theorem featUnit_at (b : Fin 4) (s : Fin 4096) (l : Fin 128) :
    featUnit v0 (ix2 (flat4 b s) l) = unitR (blockRow v0 b s) l := by
  unfold featUnit
  show flatBlock v0 (ix2 (flat4 b s) l) * Ideal.rsqrt (max (featSumsq v0 (ix2 (flat4 b s) l))
    (Named.named (F := Ideal) κ "eps_squared" (φ := .f32) 0x179ABE15#32)) = _
  rw [flatBlock_at, featSumsq_at, named_eps_sq]
  rfl

theorem sims_at (b : Fin 4) (s : Fin 4096) (j : Fin 64) :
    sims v0 v2 (ix2 (flat4 b s) j) = kerSim (blockRow v0 b s) (Cert.Spec.bankRows v2) j := by
  have ht : ∀ l : Fin 128, transpose S128x64 [1, 0] (bankUnit v2) transposes_S64x128_p1_0_S128x64 (ix2 l j) = bankUnit v2 (ix2 j l) := fun l =>
    transpose_apply [1, 0] (bankUnit v2) transposes_S64x128_p1_0_S128x64 (ix2 l j) (ix2 j l) (fun c => match c with
      | ⟨0, _⟩ => rfl
      | ⟨1, _⟩ => rfl)
  unfold sims kerSim
  rw [sim_dot]
  refine Finset.sum_congr rfl fun l _ => ?_
  show featUnit v0 (ix2 (flat4 b s) l) * (transpose S128x64 [1, 0] (bankUnit v2) transposes_S64x128_p1_0_S128x64 (ix2 l j)
    * Named.named (F := Ideal) κ "inv_temperature" (φ := .f32) 0x41649249#32) = _
  rw [featUnit_at, ht, bankUnit_at, named_inv_temp]

theorem weights_at (b : Fin 4) (s : Fin 4096) (j : Fin 64) :
    weights v0 v2 (ix2 (flat4 b s) j) = kerWeight (blockRow v0 b s) (Cert.Spec.bankRows v2) j := by
  unfold weights kerWeight
  show Ideal.exp (sims v0 v2 (ix2 (flat4 b s) j) - Named.named (F := Ideal) κ "inv_temperature" (φ := .f32) 0x41649249#32) = _
  rw [sims_at, named_inv_temp]

theorem weightSum_at (b : Fin 4) (s : Fin 4096) :
    weightSum v0 v2 (ix1 (flat4 b s)) = ∑ i : Fin 64, kerWeight (blockRow v0 b s) (Cert.Spec.bankRows v2) i := by
  unfold weightSum
  refine (Ideal.multiReduction_add_single (weights v0 v2) 0x00000000#32 reduces_S16384x64_S16384 (.inl rfl) rfl (ix1 (flat4 b s))).trans ?_
  show ∑ k : Fin 64, _ = _
  refine Finset.sum_congr rfl fun k _ => ?_
  have e : reduces_S16384x64_S16384.lift (ix1 (flat4 b s)) k = ix2 (flat4 b s) k := by
    funext c; apply Fin.ext
    fin_cases c <;> rfl
  rw [e, weights_at]

/-- Dividing a [16384, 64] array by a per-row value kept along a unit axis and spread over the 64 columns: at (r, j)
    the entry over the row's value. -/
theorem div_by_row (w : FVec Ideal S16384x64 .f32) (z : FVec Ideal S16384 .f32) (r : Fin 16384) (j : Fin 64) :
    divf w (broadcastTo S16384x64 (shapeCast S16384x1 z shapeCasts_S16384_S16384x1) broadcasts_S16384x1_S16384x64) (ix2 r j)
      = Ideal.div (w (ix2 r j)) (z (ix1 r)) := by
  have hb : broadcastTo S16384x64 (shapeCast S16384x1 z shapeCasts_S16384_S16384x1) broadcasts_S16384x1_S16384x64 (ix2 r j)
      = shapeCast S16384x1 z shapeCasts_S16384_S16384x1 (ix2 r (0 : Fin 1)) :=
    broadcastTo_apply (shapeCast S16384x1 z shapeCasts_S16384_S16384x1) broadcasts_S16384x1_S16384x64 (ix2 r j) (ix2 r (0 : Fin 1)) (fun a => match a with
      | ⟨0, _⟩ => by show r.val = if (16384 : Nat) = 1 then 0 else r.val; rw [if_neg (by decide)]
      | ⟨1, _⟩ => by show 0 = if (1 : Nat) = 1 then 0 else j.val; rw [if_pos rfl])
  have hc : shapeCast S16384x1 z shapeCasts_S16384_S16384x1 (ix2 r (0 : Fin 1)) = z (ix1 r) :=
    shapeCast_apply z shapeCasts_S16384_S16384x1 (ix2 r (0 : Fin 1)) (ix1 r)
      (by rw [Shape.rowMajor_val_one, Shape.rowMajor_val_two]; show r.val = r.val * 1 + 0; omega)
  refine (divf_apply w _ (ix2 r j)).trans ?_
  rw [hb, hc]

theorem shares_at (b : Fin 4) (s : Fin 4096) (j : Fin 64) :
    shares v0 v2 (ix2 (flat4 b s) j)
      = Ideal.div (kerWeight (blockRow v0 b s) (Cert.Spec.bankRows v2) j) (∑ i : Fin 64, kerWeight (blockRow v0 b s) (Cert.Spec.bankRows v2) i) := by
  unfold shares
  refine (div_by_row (weights v0 v2) (weightSum v0 v2) (flat4 b s) j).trans ?_
  rw [weightSum_at, weights_at]

theorem outFlat_at (b : Fin 4) (s : Fin 4096) (k : Fin 128) :
    outFlat v0 v2 (ix2 (flat4 b s) k) = kerRow (blockRow v0 b s) (Cert.Spec.bankRows v2) k := by
  unfold outFlat kerRow
  show featUnit v0 (ix2 (flat4 b s) k) + matmul dot_S16384x64_S64x128_S16384x128_1_0_0_1_n_n none (shares v0 v2) (bankUnit v2) (constant S16384x128 .f32 0x00000000#32) (ix2 (flat4 b s) k) = _
  rw [featUnit_at, mix_dot]
  refine congrArg _ (Finset.sum_congr rfl fun j _ => ?_)
  rw [shares_at, bankUnit_at]

/-- The body's stored value at (b, s, k) of the block is entry `k` of the kernel's row for the block's feature row (b, s). -/
theorem payload_at (b : Fin 4) (s : Fin 4096) (k : Fin 128) :
    k0_pay1 (F := Ideal) v0 v2 (ix3 b s k) = kerRow (blockRow v0 b s) (Cert.Spec.bankRows v2) k := by
  rw [payload_eq]
  refine (shapeCast_apply (outFlat v0 v2) shapeCasts_S16384x128_S4x4096x128 (ix3 b s k) (ix2 (flat4 b s) k)
    (by rw [Shape.rowMajor_val_three, Shape.rowMajor_val_two]; rfl)).trans ?_
  exact outFlat_at v0 v2 b s k

end Cert.KernelRows

end
-- ==== Proof.KernelArray.lean ====
/-
  The kernel's result array.

  The grid has four points; point `t` stages batches `4t .. 4t+3` of the features and the whole bank, and writes
  back the same four batches of the result. Inside the block, entry (b, s, k) is entry `k` of the kernel's row for
  the block's feature row (b, s), which is the array's feature row (4t + b, s); so what point `t` writes back is
  block `t` of one whole-array function, the attended array of the two arguments. The four blocks tile the result
  (batch `i` lies in block `i / 4`), so after the run the result array is that function everywhere.
-/
import proofs.«136098_g85598698209303_cont_9to1_m_192_14_alg».proof.Proof.Gen.KernelIdeal.Value
import proofs.«136098_g85598698209303_cont_9to1_m_192_14_alg».proof.Proof.KernelRows

noncomputable section

namespace Cert.KernelArray

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)
open Cert.Spec Cert.RowLaw

variable (m : (ℓ : Loc nD τ sig) → Buf (Elt Ideal) ℓ) (ρ : Dev nD → PrngReg)

theorem zeros3 : (![0, 0, 0] : Fin 3 → Nat) = fun _ => 0 := funext fun a => by fin_cases a <;> rfl
theorem zeros2 : (![0, 0] : Fin 2 → Nat) = fun _ => 0 := funext fun a => by fin_cases a <;> rfl

/-- The block indices over the grid: the feature window moves with the result window along the batch axis and
    stays at zero on the other two; the bank window never moves; the result's batch-block index is at most 3. -/
theorem block_indices : ∀ t : Fin cfg0.N,
    win0_0.index t (0 : Fin 3) = win0_2.index t (0 : Fin 3) ∧ win0_0.index t (1 : Fin 3) = 0 ∧ win0_0.index t (2 : Fin 3) = 0
    ∧ win0_1.index t (0 : Fin 2) = 0 ∧ win0_1.index t (1 : Fin 2) = 0
    ∧ win0_2.index t (0 : Fin 3) ≤ 3 ∧ win0_2.index t (1 : Fin 3) = 0 ∧ win0_2.index t (2 : Fin 3) = 0 :=
  (by decide +kernel : ∀ t : Fin grid0.N, _)

/-- Every batch block is some point's. -/
theorem block_onto : ∀ q : Fin 4, ∃ t : Fin cfg0.N, win0_2.index t = ![q.val, 0, 0] :=
  (by decide +kernel : ∀ q : Fin 4, ∃ t : Fin grid0.N, win0_2.index t = ![q.val, 0, 0])

/-- What point `t` writes back is block `t` of the attended array of the two arguments. -/
theorem flushed_eq (c : Dev nD) (t : Fin cfg0.N) :
    (dats m 0 c).flushed 2 t
      = ((cfg0.win 2).blk t).view.read (Elt Ideal) (attended (V m c main_arg0) (V m c main_arg1)) := by
  rw [flushed2]
  unfold out0_2
  rw [View.canon_unit_zero zeros3]
  simp only [View.ld_unit_zero (S := S4x4096x128) zeros3, View.ld_unit_zero (S := S64x128) zeros2]
  obtain ⟨e0, e1, e2, e3, e4, e5, e6, e7⟩ := block_indices t
  funext j
  obtain ⟨b, s, k, rfl⟩ : ∃ (b : Fin 4) (s : Fin 4096) (k : Fin 128), j = ix3 b s k := ⟨j 0, j 1, j 2, eq_ix3 j⟩
  have hb : b.val < 4 := b.isLt
  have hs : s.val < 4096 := s.isLt
  have hk : k.val < 128 := k.isLt
  show k0_pay1 (F := Ideal) (iblk m c 0 t) (iblk m c 1 t) (ix3 b s k)
    = attended (V m c main_arg0) (V m c main_arg1) (((cfg0.win 2).blk t).view.emb (ix3 b s k))
  refine (Cert.KernelRows.payload_at (iblk m c 0 t) (iblk m c 1 t) b s k).trans ?_
  have hout : ((cfg0.win 2).blk t).view.emb (ix3 b s k)
      = ix3 (⟨win0_2.index t (0 : Fin 3) * 4 + b.val, by omega⟩ : Fin 16) s k := by
    funext a; apply Fin.ext
    match a with
    | ⟨0, _⟩ => show win0_2.index t (0 : Fin 3) * 4 + 1 * b.val = win0_2.index t (0 : Fin 3) * 4 + b.val; omega
    | ⟨1, _⟩ => show win0_2.index t (1 : Fin 3) * 4096 + 1 * s.val = s.val; omega
    | ⟨2, _⟩ => show win0_2.index t (2 : Fin 3) * 128 + 1 * k.val = k.val; omega
  have hrow : Cert.KernelRows.blockRow (iblk m c 0 t) b s
      = featRow (V m c main_arg0) (⟨win0_2.index t (0 : Fin 3) * 4 + b.val, by omega⟩ : Fin 16) s := by
    funext l
    have hl : l.val < 128 := l.isLt
    show V m c main_arg0 (((cfg0.win 0).blk t).view.emb (ix3 b s l))
      = V m c main_arg0 (ix3 (⟨win0_2.index t (0 : Fin 3) * 4 + b.val, by omega⟩ : Fin 16) s l)
    refine congrArg _ (funext fun a => Fin.ext ?_)
    match a with
    | ⟨0, _⟩ => show win0_0.index t (0 : Fin 3) * 4 + 1 * b.val = win0_2.index t (0 : Fin 3) * 4 + b.val; omega
    | ⟨1, _⟩ => show win0_0.index t (1 : Fin 3) * 4096 + 1 * s.val = s.val; omega
    | ⟨2, _⟩ => show win0_0.index t (2 : Fin 3) * 128 + 1 * l.val = l.val; omega
  have hbank : bankRows (iblk m c 1 t) = bankRows (V m c main_arg1) := by
    funext j l
    show V m c main_arg1 (((cfg0.win 1).blk t).view.emb (ix2 j l)) = V m c main_arg1 (ix2 j l)
    refine congrArg _ (funext fun a => Fin.ext ?_)
    match a with
    | ⟨0, _⟩ => show win0_1.index t (0 : Fin 2) * 64 + 1 * j.val = j.val; omega
    | ⟨1, _⟩ => show win0_1.index t (1 : Fin 2) * 128 + 1 * l.val = l.val; omega
  rw [hrow, hbank, hout]
  rfl

/-- An index of the result is in point `t`'s block iff each coordinate is in the block's range on its axis. -/
theorem mem_block (t : Fin cfg0.N) (i : S16x4096x128.Idx) :
    i ∈ ((cfg0.win 2).blk t).view.set ↔ ∀ a : Fin 3, win0_2.index t a * S4x4096x128.size a ≤ (i a).val
      ∧ (i a).val < win0_2.index t a * S4x4096x128.size a + S4x4096x128.size a := by
  show i ∈ ((View.whole main_v0).slice (win0_2.rect t)).set ↔ _
  rw [View.set_slice_whole, Rect.mem_set_unit]
  exact Iff.rfl

/-- Every index of the result is in the block of the point that holds its batch. -/
theorem covered (i : S16x4096x128.Idx) :
    ∃ t : Fin cfg0.N, (cfg0.win 2).flush t = true ∧ i ∈ ((cfg0.win 2).blk t).view.set := by
  have hi0 : (i 0).val < 16 := (i 0).isLt
  have hi1 : (i 1).val < 4096 := (i 1).isLt
  have hi2 : (i 2).val < 128 := (i 2).isLt
  obtain ⟨t, ht⟩ := block_onto ⟨(i 0).val / 4, by omega⟩
  have q0 : win0_2.index t (0 : Fin 3) = (i 0).val / 4 := congrFun ht 0
  have q1 : win0_2.index t (1 : Fin 3) = 0 := congrFun ht 1
  have q2 : win0_2.index t (2 : Fin 3) = 0 := congrFun ht 2
  refine ⟨t, flush0_2 t, ?_⟩
  rw [mem_block]
  intro a
  match a with
  | ⟨0, _⟩ => show win0_2.index t (0 : Fin 3) * 4 ≤ (i 0).val ∧ (i 0).val < win0_2.index t (0 : Fin 3) * 4 + 4; omega
  | ⟨1, _⟩ => show win0_2.index t (1 : Fin 3) * 4096 ≤ (i 1).val ∧ (i 1).val < win0_2.index t (1 : Fin 3) * 4096 + 4096; omega
  | ⟨2, _⟩ => show win0_2.index t (2 : Fin 3) * 128 ≤ (i 2).val ∧ (i 2).val < win0_2.index t (2 : Fin 3) * 128 + 128; omega

/-- After the run the result array is the attended array of the two arguments. -/
theorem final (c : Dev nD) : (dats m 0 c).arrAt 2 cfg0.N = attended (V m c main_arg0) (V m c main_arg1) :=
  (dats m 0 c).arrAt_eq_of_cover 2 (attended (V m c main_arg0) (V m c main_arg1)) (fun t _ => flushed_eq m c t) covered

/-- The kernel's run: every weakly fair execution ends with the result at the attended array of the arguments,
    and the arguments unchanged. -/
theorem run : θ_run defs (onTc (τ := τ) (main (F := Ideal))) ⟨m, fun _ => 0, ρ⟩ fun r => ∀ c : Dev nD,
      r.2.mem ((c : Thread nD τ).loc main_v0)
        = attended (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelArray

end
-- ==== Proof.RefRows.lean ====
/-
  The reference's result, read at an index.

  The reference normalises every feature row and every bank row by its floored norm, flattens the features to
  [65536, 128], takes the inner products with the transposed bank, divides by the temperature, subtracts each
  row's largest similarity, exponentiates, normalises the weights by their sum, mixes the bank's unit rows with
  them, adds the unit feature row, and reshapes back. Read at (b, s, k) this is entry `k` of the reference's
  row of the row law for feature row (b, s): each stage below is one operation read at explicit coordinates, row
  number `b * 4096 + s` standing for (b, s) on the flattened arrays.
-/
import proofs.«136098_g85598698209303_cont_9to1_m_192_14_alg».proof.Proof.Gen.ReferenceIdeal.Read
import proofs.«136098_g85598698209303_cont_9to1_m_192_14_alg».proof.Proof.Spec

noncomputable section

namespace Cert.RefRows

open Cert.ReferenceIdeal Cert.ReferenceIdeal.Gen Cert.ReferenceIdeal.Read
open Idealize.ShloMosaic Idealize.ShloMosaic.ValueIdx Idealize.ShloMosaic.StableHlo
open Cert.Spec Cert.RowLaw Cert.Words

variable (X : (⟨S16x4096x128, .f32⟩ : BufTy).Contents (Elt Ideal)) (B : (⟨S64x128, .f32⟩ : BufTy).Contents (Elt Ideal))

/-! ## The unit feature rows -/

/-- The floored norm of feature row (b, s), kept along a last axis of size one. -/
theorem floored_feat (b : Fin 16) (s : Fin 4096) (z : Fin 1) :
    val_main_v5 (F := Ideal) X (ix3 b s z) = flooredNorm (featRow X b s) := by
  have e : ∀ k : Fin 128, idx_main_v1 (idx_main_v2 (ix3 b s z)) k = ix3 b s k := fun k =>
    funext fun a => Fin.ext (by match a with | ⟨0, _⟩ => rfl | ⟨1, _⟩ => rfl | ⟨2, _⟩ => rfl)
  refine Eq.trans ?_ (rfl : max (Ideal.sqrt (∑ l, X (ix3 b s l) * X (ix3 b s l))) (eps : EReal) = flooredNorm (featRow X b s))
  rw [val_main_v5_apply, val_main_v3_apply, val_main_v2_apply, val_main_v1_apply, val_main_v4_apply, val_main_cst_0_apply,
    val_main_cst_apply]
  simp only [val_main_v0_apply, e, Ideal.hostUnary_sqrt_def, Ideal.maximumf_def, Ideal.mulf_def, Ideal.ofBits_def,
    Ideal.ofBits_zero_f32, zero_add, ofBits_eps]

/-- The unit feature row, entry by entry. -/
theorem unit_feat (b : Fin 16) (s : Fin 4096) (l : Fin 128) :
    val_main_v7 (F := Ideal) X (ix3 b s l) = unitQ (featRow X b s) l := by
  have e : idx_main_v6 (ix3 b s l) = ix3 b s (0 : Fin 1) :=
    funext fun a => Fin.ext (by match a with | ⟨0, _⟩ => rfl | ⟨1, _⟩ => rfl | ⟨2, _⟩ => rfl)
  rw [val_main_v7_apply, val_main_v6_apply, e, floored_feat]
  rfl

/-- The same on the flattened array: row `b * 4096 + s` is feature row (b, s). -/
theorem unit_feat_flat (b : Fin 16) (s : Fin 4096) (l : Fin 128) :
    val_main_v8 (F := Ideal) X (ix2 (flat b s) l) = unitQ (featRow X b s) l := by
  have e : idx_main_v8 (ix2 (flat b s) l) = ix3 b s l := by
    have hb := b.isLt; have hs := s.isLt; have hl := l.isLt
    funext a; apply Fin.ext
    match a with
    | ⟨0, _⟩ => show ((b.val * 4096 + s.val) * 128 + l.val) / 524288 = b.val; omega
    | ⟨1, _⟩ => show ((b.val * 4096 + s.val) * 128 + l.val) / 128 % 4096 = s.val; omega
    | ⟨2, _⟩ => show ((b.val * 4096 + s.val) * 128 + l.val) % 128 = l.val; omega
  rw [val_main_v8_apply, e, unit_feat]

/-! ## The unit bank rows -/

theorem floored_bank (j : Fin 64) (z : Fin 1) :
    val_main_v14 (F := Ideal) B (ix2 j z) = flooredNorm (bankRows B j) := by
  have e : ∀ k : Fin 128, idx_main_v10 (idx_main_v11 (ix2 j z)) k = ix2 j k := fun k =>
    funext fun a => Fin.ext (by match a with | ⟨0, _⟩ => rfl | ⟨1, _⟩ => rfl)
  refine Eq.trans ?_ (rfl : max (Ideal.sqrt (∑ l, B (ix2 j l) * B (ix2 j l))) (eps : EReal) = flooredNorm (bankRows B j))
  rw [val_main_v14_apply, val_main_v12_apply, val_main_v11_apply, val_main_v10_apply, val_main_v13_apply, val_main_cst_2_apply,
    val_main_cst_1_apply]
  simp only [val_main_v9_apply, e, Ideal.hostUnary_sqrt_def, Ideal.maximumf_def, Ideal.mulf_def, Ideal.ofBits_def,
    Ideal.ofBits_zero_f32, zero_add, ofBits_eps]

theorem unit_bank (j : Fin 64) (l : Fin 128) :
    val_main_v16 (F := Ideal) B (ix2 j l) = unitQ (bankRows B j) l := by
  have e : idx_main_v15 (ix2 j l) = ix2 j (0 : Fin 1) :=
    funext fun a => Fin.ext (by match a with | ⟨0, _⟩ => rfl | ⟨1, _⟩ => rfl)
  rw [val_main_v16_apply, val_main_v15_apply, e, floored_bank]
  rfl

theorem unit_bank_transposed (l : Fin 128) (j : Fin 64) :
    val_main_v17 (F := Ideal) B (ix2 l j) = unitQ (bankRows B j) l := by
  have e : idx_main_v17 (ix2 l j) = ix2 j l :=
    funext fun a => Fin.ext (by match a with | ⟨0, _⟩ => rfl | ⟨1, _⟩ => rfl)
  rw [val_main_v17_apply, e, unit_bank]

/-! ## Similarities, their largest, and the weights -/

theorem sim_at (b : Fin 16) (s : Fin 4096) (j : Fin 64) :
    val_main_v20 (F := Ideal) X B (ix2 (flat b s) j) = refSim (featRow X b s) (bankRows B) j := by
  have el : ∀ k : Fin 128, lidx_main_v18 (ix2 (flat b s) j) k = ix2 (flat b s) k := fun k =>
    funext fun a => Fin.ext (by match a with | ⟨0, _⟩ => rfl | ⟨1, _⟩ => rfl)
  have er : ∀ k : Fin 128, ridx_main_v18 (ix2 (flat b s) j) k = ix2 k j := fun k =>
    funext fun a => Fin.ext (by match a with | ⟨0, _⟩ => rfl | ⟨1, _⟩ => rfl)
  unfold refSim
  rw [val_main_v20_apply, val_main_v18_apply, val_main_v19_apply, val_main_cst_3_apply]
  simp only [el, er, unit_feat_flat, unit_bank_transposed, Ideal.hostDivf_def, Ideal.ofBits_def, ofBits_temp]

/-- The row's running maximum of the similarities, from the bottom. -/
theorem top_at (b : Fin 16) (s : Fin 4096) :
    val_main_v23 (F := Ideal) X B (ix1 (flat b s)) = refTop (featRow X b s) (bankRows B) := by
  have h : S65536x64.Reduces [1] S65536 := by decide
  have elift : ∀ k : Fin (S65536x64.size 1), h.lift (ix1 (flat b s)) k = ix2 (flat b s) (⟨k.val, k.isLt⟩ : Fin 64) := fun k => by
    funext c; apply Fin.ext
    fin_cases c <;> rfl
  have hf : (val_main_v20 (F := Ideal) X B ∘ h.lift (ix1 (flat b s))) = refSim (featRow X b s) (bankRows B) :=
    funext fun k => by
      show val_main_v20 (F := Ideal) X B (h.lift (ix1 (flat b s)) k) = _
      rw [elift, sim_at]
      rfl
  have hfold : val_main_v21 (F := Ideal) X B (ix1 (flat b s))
      = (Finset.univ : Finset (Fin 64)).fold max ⊥ (refSim (featRow X b s) (bankRows B)) := by
    unfold val_main_v21
    refine (Host.reduce_eq_fold_single (FloatOps.maximumf (F := Ideal) (φ := .f32))
      (val_main_v20 (F := Ideal) X B : FVec Ideal S65536x64 .f32) (val_main_cst_4 (F := Ideal))
      reducesTo_S65536x64_S65536_d1 h h_S_ (ix1 (flat b s))).trans ?_
    rw [hf, val_main_cst_4_apply, Ideal.ofBits_def, ofBits_neg_inf]
    rfl
  unfold refTop
  rw [val_main_v23_apply, val_main_v22_apply, val_main_cst_5_apply, hfold, Ideal.maximumf_def, Ideal.ofBits_def, ofBits_neg_inf]

theorem weight_at (b : Fin 16) (s : Fin 4096) (j : Fin 64) :
    val_main_v27 (F := Ideal) X B (ix2 (flat b s) j) = refWeight (featRow X b s) (bankRows B) j := by
  have e : idx_main_v24 (idx_main_v25 (ix2 (flat b s) j)) = ix1 (flat b s) :=
    funext fun a => Fin.ext (by match a with | ⟨0, _⟩ => rfl)
  unfold refWeight
  rw [val_main_v27_apply, val_main_v26_apply, val_main_v25_apply, val_main_v24_apply, e, top_at, sim_at]
  simp only [Ideal.hostUnary_exp_def, Ideal.subf_def]

theorem share_at (b : Fin 16) (s : Fin 4096) (j : Fin 64) :
    val_main_v31 (F := Ideal) X B (ix2 (flat b s) j)
      = Ideal.div (refWeight (featRow X b s) (bankRows B) j) (∑ i, refWeight (featRow X b s) (bankRows B) i) := by
  have e : idx_main_v29 (idx_main_v30 (ix2 (flat b s) j)) = ix1 (flat b s) :=
    funext fun a => Fin.ext (by match a with | ⟨0, _⟩ => rfl)
  have ek : ∀ k : Fin 64, idx_main_v28 (ix1 (flat b s)) k = ix2 (flat b s) k := fun k =>
    funext fun a => Fin.ext (by match a with | ⟨0, _⟩ => rfl | ⟨1, _⟩ => rfl)
  rw [val_main_v31_apply, val_main_v30_apply, val_main_v29_apply, e, val_main_v28_apply, val_main_cst_6_apply]
  simp only [ek, weight_at, Ideal.hostDivf_def, Ideal.ofBits_def, Ideal.ofBits_zero_f32, zero_add]

/-! ## The result -/

theorem row_flat (b : Fin 16) (s : Fin 4096) (k : Fin 128) :
    val_main_v33 (F := Ideal) X B (ix2 (flat b s) k) = refRow (featRow X b s) (bankRows B) k := by
  have el : ∀ j : Fin 64, lidx_main_v32 (ix2 (flat b s) k) j = ix2 (flat b s) j := fun j =>
    funext fun a => Fin.ext (by match a with | ⟨0, _⟩ => rfl | ⟨1, _⟩ => rfl)
  have er : ∀ j : Fin 64, ridx_main_v32 (ix2 (flat b s) k) j = ix2 j k := fun j =>
    funext fun a => Fin.ext (by match a with | ⟨0, _⟩ => rfl | ⟨1, _⟩ => rfl)
  unfold refRow
  rw [val_main_v33_apply, val_main_v32_apply, unit_feat_flat]
  simp only [el, er, share_at, unit_bank, Ideal.addf_def]

/-- The reference's result at (b, s, k) is entry `k` of its row for feature row (b, s). -/
theorem result_at (b : Fin 16) (s : Fin 4096) (k : Fin 128) :
    val_main_v34 (F := Ideal) X B (ix3 b s k) = refRow (featRow X b s) (bankRows B) k := by
  have e : idx_main_v34 (ix3 b s k) = ix2 (flat b s) k := by
    have hb := b.isLt; have hs := s.isLt; have hk := k.isLt
    funext a; apply Fin.ext
    match a with
    | ⟨0, _⟩ => show ((b.val * 4096 + s.val) * 128 + k.val) / 128 = b.val * 4096 + s.val; omega
    | ⟨1, _⟩ => show ((b.val * 4096 + s.val) * 128 + k.val) % 128 = k.val; omega
  rw [val_main_v34_apply, e, row_flat]

end Cert.RefRows

end
-- ==== Proof.Bridge.lean ====
/-
  The two result arrays are one function of the arguments.

  At (b, s, k) the reference's result is entry `k` of its row for feature row (b, s), and the attended array is
  entry `k` of the kernel's row for the same feature row and the same bank. When every entry of both arguments is
  a real number the two rows agree, by the row law.
-/
import proofs.«136098_g85598698209303_cont_9to1_m_192_14_alg».proof.Proof.RefRows

noncomputable section

namespace Cert.Bridge

open Cert.ReferenceIdeal Cert.ReferenceIdeal.Read
open Idealize.ShloMosaic Idealize.ShloMosaic.ValueIdx Idealize.ShloMosaic.StableHlo
open Cert.Spec Cert.RowLaw

/-- On real entries the reference's result array is the attended array. -/
theorem reference_eq_attended (X : (⟨S16x4096x128, .f32⟩ : BufTy).Contents (Elt Ideal))
    (B : (⟨S64x128, .f32⟩ : BufTy).Contents (Elt Ideal))
    (hX : ∀ i, ∃ r : ℝ, X i = (r : EReal)) (hB : ∀ i, ∃ r : ℝ, B i = (r : EReal)) :
    val_main_v34 (F := Ideal) X B = attended X B := by
  choose xr hxr using hX
  choose br hbr using hB
  funext i
  obtain ⟨b, s, k, rfl⟩ : ∃ (b : Fin 16) (s : Fin 4096) (k : Fin 128), i = ix3 b s k := ⟨i 0, i 1, i 2, eq_ix3 i⟩
  rw [Cert.RefRows.result_at]
  have hx : ∀ l, featRow X b s l = ((xr (ix3 b s l) : ℝ) : EReal) := fun l => hxr (ix3 b s l)
  have hm : ∀ j l, bankRows B j l = ((br (ix2 j l) : ℝ) : EReal) := fun j l => hbr (ix2 j l)
  exact (congrFun (row_law hx hm) k).symm

end Cert.Bridge

end
-- ==== Proof.Finite.lean ====
/-
  From the precondition to real entries.

  The precondition says that both arguments pass "every entry's absolute value is below plus infinity". On the
  extended reals the absolute value of the bottom or of the top element is the top element, which is not below
  itself, so every entry of both arrays is a real number.
-/
import proofs.«136098_g85598698209303_cont_9to1_m_192_14_alg».proof.Pre_finite_inputs
import proofs.«136098_g85598698209303_cont_9to1_m_192_14_alg».proof.Proof.Gen.Pre_finite_inputs
import Idealize.ShloMosaic.PureOps.Ideal
import Idealize.ShloMosaic.Lib.ReduceAll
import Idealize.ShloMosaic.Lib.Affine
import Idealize.ShloMosaic.Lib.ValueIdx

noncomputable section

namespace Cert.Finite

open Cert.Pre_finite_inputs Idealize.ShloMosaic Idealize.ShloMosaic.ValueIdx

/-- An extended real whose absolute value is below plus infinity is a real number. -/
theorem real_of_abs_lt_inf (x : EReal)
    (h : Ideal.cmp .olt (max x (-x)) (Ideal.ofBits .f32 0x7F800000#32) = 1#1) : ∃ r : ℝ, x = (r : EReal) := by
  have hinf : Ideal.ofBits .f32 0x7F800000#32 = ⊤ := by simp [Ideal.ofBits, Ideal.ieee]
  rw [hinf] at h
  induction x using EReal.rec with
  | bot => simp [Ideal.cmp] at h
  | top => simp [Ideal.cmp] at h
  | coe r => exact ⟨r, rfl⟩

instance : Subsingleton S_.Idx := ⟨fun a b => funext fun d => d.elim0⟩

/-- Under the precondition every entry of both arguments is a real number. -/
theorem real_entries (X : FVec Ideal S16x4096x128 .f32) (B : FVec Ideal S64x128 .f32)
    (h : fn (F := Ideal) X B = fun _ => 1#1) :
    (∀ i, ∃ r : ℝ, X i = (r : EReal)) ∧ (∀ i, ∃ r : ℝ, B i = (r : EReal)) := by
  have h0 := congrFun h ix0
  dsimp only [fn] at h0
  obtain ⟨h1, h2⟩ := IntOp.andi_eq_one.1 h0
  refine ⟨fun i => ?_, fun i => ?_⟩
  · have e := Host.reduce_andi_all _ _ Facts.reducesTo_S16x4096x128_S_d0_1_2 Facts.h_S_ ix0 h1 i
    exact real_of_abs_lt_inf (X i) e
  · have e := Host.reduce_andi_all _ _ Facts.reducesTo_S64x128_S_d0_1 Facts.h_S_ ix0 h2 i
    exact real_of_abs_lt_inf (B i) e

end Cert.Finite

end
-- ==== Proof.lean ====
/-
  A memory-attention layer: the kernel against its reference, equal over the extended reals.

  Each of the 16 * 4096 feature rows x (128 numbers) is scaled to a unit vector u(x) = x / max (|x|, eps), every row
  m_j of a bank of 64 is scaled likewise, the similarities s_j = <u(x), u(m_j)> / temp are turned into weights
  a_j = exp (s_j) / (sum over i of exp (s_i)), and the result row is u(x) + sum over j of a_j * u(m_j).

  The reference does exactly this, subtracting the largest s_j before the exponential. The kernel works on blocks
  of four batches; it scales x by the reciprocal square root of max (|x|^2, eps^2), folds 1 / temp into the bank
  before the inner product, and subtracts the constant 1 / temp before the exponential. Its two folded constants
  are read as the exact closed forms over the reference's own words: the square of the word for eps and the
  reciprocal of the word for temp (the two named constants, spelt at three sites of the kernel body).

  With those readings the two programs agree on every input whose entries are real numbers, which is what the
  precondition provides: the square root commutes with the maximum, the factor 1 / temp comes out of the finite
  sum, and a common shift of the exponents cancels in a_j. The kernel's result array is assembled from its four
  blocks, each block entry being one entry of the row above; the reference's is read operation by operation at an
  index. Both are the same whole-array function of the two arguments.
-/
import proofs.«136098_g85598698209303_cont_9to1_m_192_14_alg».proof.Defs
import proofs.«136098_g85598698209303_cont_9to1_m_192_14_alg».proof.Proof.Gen.Kernel
import proofs.«136098_g85598698209303_cont_9to1_m_192_14_alg».proof.Proof.Gen.Kernel.Skeleton
import proofs.«136098_g85598698209303_cont_9to1_m_192_14_alg».proof.Proof.Gen.Kernel.Launch
import proofs.«136098_g85598698209303_cont_9to1_m_192_14_alg».proof.Proof.Gen.Kernel.Points
import proofs.«136098_g85598698209303_cont_9to1_m_192_14_alg».proof.Proof.Gen.Kernel.Frame
import proofs.«136098_g85598698209303_cont_9to1_m_192_14_alg».proof.Proof.Gen.KernelIdeal
import proofs.«136098_g85598698209303_cont_9to1_m_192_14_alg».proof.Proof.Gen.KernelIdeal.Skeleton
import proofs.«136098_g85598698209303_cont_9to1_m_192_14_alg».proof.Proof.Gen.KernelIdeal.Launch
import proofs.«136098_g85598698209303_cont_9to1_m_192_14_alg».proof.Proof.Gen.KernelIdeal.Points
import proofs.«136098_g85598698209303_cont_9to1_m_192_14_alg».proof.Proof.Gen.KernelIdeal.Frame
import proofs.«136098_g85598698209303_cont_9to1_m_192_14_alg».proof.Proof.Gen.ReferenceIdeal
import proofs.«136098_g85598698209303_cont_9to1_m_192_14_alg».proof.Proof.Gen.Pre_finite_inputs
import proofs.«136098_g85598698209303_cont_9to1_m_192_14_alg».proof.Proof.Gen.KernelIdeal.Value
import proofs.«136098_g85598698209303_cont_9to1_m_192_14_alg».proof.Proof.Gen.ReferenceIdeal.Run
import proofs.«136098_g85598698209303_cont_9to1_m_192_14_alg».proof.Proof.Gen.ReferenceIdeal.Read
import proofs.«136098_g85598698209303_cont_9to1_m_192_14_alg».proof.Proof.KernelArray
import proofs.«136098_g85598698209303_cont_9to1_m_192_14_alg».proof.Proof.Bridge
import proofs.«136098_g85598698209303_cont_9to1_m_192_14_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel [Cert.Kernel.Facts] [Cert.Pre_finite_inputs.Facts] : Cert.frame_Kernel :=
  fun m ρ _ => Cert.Kernel.Gen.frame m ρ

/-- So does the idealized kernel. -/
theorem frame_kernel_ideal [Cert.KernelIdeal.Facts] [Cert.Pre_finite_inputs.Facts] : Cert.frame_KernelIdeal :=
  fun m ρ _ => Cert.KernelIdeal.Gen.frame m ρ

/-- The reference's frame is its run with the result forgotten. -/
theorem frame_reference [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- The idealization's three rewrites: the floor under the squared norm is the square of the norm floor, and the
    scale on the bank and the shift of the exponents are both the reciprocal of the temperature, as the table
    of named constants says. -/
theorem preserves : Cert.preserves_Kernel_KernelIdeal :=
  ⟨IdealRules.named_const.statement Cert.KernelIdeal.κ "eps_squared" .f32 0x179ABE15#32
      ((5316911940649 / 5316911983139663491615228241121378304 : ℝ) : EReal) rfl,
    IdealRules.named_const.statement Cert.KernelIdeal.κ "inv_temperature" .f32 0x41649249#32
      ((134217728 / 9395241 : ℝ) : EReal) rfl,
    IdealRules.named_const.statement Cert.KernelIdeal.κ "inv_temperature" .f32 0x41649249#32
      ((134217728 / 9395241 : ℝ) : EReal) rfl⟩

/-- From memories agreeing on the arguments both programs end with the attended array of the arguments: the
    kernel by its blocks, the reference by its operations read at an index and the row law on real entries. -/
theorem algebraic [Cert.KernelIdeal.Facts] [Cert.ReferenceIdeal.Facts] [Cert.Pre_finite_inputs.Facts] :
    Cert.algebraic_KernelIdeal_ReferenceIdeal := by
  intro m ρ m' ρ' hpre hagree
  refine ⟨_, Cert.KernelArray.run m ρ, ?_⟩
  refine (θ_run Cert.ReferenceIdeal.defs _ _).mono (fun _ h c => ⟨(h c).1.trans ?_, (h c).2⟩)
    (Cert.ReferenceIdeal.Value.run (F := Ideal) m' ρ')
  obtain ⟨hX, hB⟩ := Cert.Finite.real_entries _ _ (hpre c)
  rw [Cert.ReferenceIdeal.Read.val_main_v34_eq, (hagree c).1, (hagree c).2]
  exact Cert.Bridge.reference_eq_attended _ _ hX hB

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
